-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S64x30 : Shape := ⟨2, ![64, 30]⟩
abbrev S30 : Shape := ⟨1, ![30]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x30 : S_.BroadcastsInDim S64x30 (![] : Fin 0 → Fin S64x30.rank)
  reducesTo_S64x30_S_d0_1 : S64x30.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg6 : FVec F S30 .f32) (main_v13 : IVec S_ 1) (main_v16 : IVec S64x30 1) : IVec S_ 1 :=
  let main_c_5 : IVec S_ 1 := constantI S_ 1 1#1
  let main_v17 : IVec S_ 1 := (fun x v => Host.reduce IntOp.andi x v reducesTo_S64x30_S_d0_1 h_S_) main_v16 main_c_5
  let main_v18 : IVec S_ 1 := andi main_v13 main_v17
  let main_v19 : FVec F S30 .f32 := Host.absf main_arg6
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  main_v23

def fn {F : FTy → Type} [FloatOps F] (main_arg0 : FVec F S100000x64 .f32) (main_arg1 : IVec S3200000 32) (main_arg2 : IVec S3200000 32) (main_arg3 : FVec F S64x64 .f32) (main_arg4 : FVec F S64 .f32) (main_arg5 : FVec F S64x30 .f32) (main_arg6 : FVec F S30 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x30 .f32 := Host.absf main_arg5
  let main_cst_4 : FVec F S_ .f32 := constant S_ .f32 0x7F800000#32
  let main_v15 : FVec F S64x30 .f32 := broadcastInDim S64x30 ![] bcast_S_S64x30 main_cst_4
  let main_v16 : IVec S64x30 1 := cmpf .olt main_v14 main_v15
  fn_part1 (F := F) main_arg6 main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S64x30 : Shape := ⟨2, ![64, 30]⟩
abbrev S30 : Shape := ⟨1, ![30]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩
abbrev S2000x64 : Shape := ⟨2, ![2000, 64]⟩
abbrev S2000x1 : Shape := ⟨2, ![2000, 1]⟩
abbrev S1x64 : Shape := ⟨2, ![1, 64]⟩
abbrev S64x128 : Shape := ⟨2, ![64, 128]⟩
abbrev S128 : Shape := ⟨1, ![128]⟩
abbrev S100000x128 : Shape := ⟨2, ![100000, 128]⟩
abbrev S2000x128 : Shape := ⟨2, ![2000, 128]⟩
abbrev S1x128 : Shape := ⟨2, ![1, 128]⟩
abbrev S100000x30 : Shape := ⟨2, ![100000, 30]⟩

abbrev nBuf : Space → Nat
  | .hbm => 114
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S64x64, .f32⟩
  | .hbm, ⟨4, _⟩ => ⟨S64, .f32⟩
  | .hbm, ⟨5, _⟩ => ⟨S64x30, .f32⟩
  | .hbm, ⟨6, _⟩ => ⟨S30, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x64, .f32⟩
  | .hbm, ⟨51, _⟩ => ⟨S_, .f32⟩
  | .hbm, ⟨52, _⟩ => ⟨S100000x64, .f32⟩
  | .hbm, ⟨53, _⟩ => ⟨S3200000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S_, .f32⟩
  | .hbm, ⟨58, _⟩ => ⟨S3200000, .f32⟩
  | .hbm, ⟨59, _⟩ => ⟨S_, .f32⟩
  | .hbm, ⟨60, _⟩ => ⟨S100000, .f32⟩
  | .hbm, ⟨61, _⟩ => ⟨S3200000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S3200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S3200000, .i32⟩
  | .hbm, ⟨94, _⟩ => ⟨S3200000, .i1⟩
  | .hbm, ⟨95, _⟩ => ⟨S_, .i32⟩
  | .hbm, ⟨96, _⟩ => ⟨S3200000, .i32⟩
  | .hbm, ⟨97, _⟩ => ⟨S3200000, .i32⟩
  | .hbm, ⟨98, _⟩ => ⟨S3200000, .i32⟩
  | .hbm, ⟨99, _⟩ => ⟨S3200000x1, .i32⟩
  | .hbm, ⟨100, _⟩ => ⟨S3200000x64, .f32⟩
  | .hbm, ⟨101, _⟩ => ⟨S_, .f32⟩
  | .hbm, ⟨102, _⟩ => ⟨S100000x64, .f32⟩
  | .hbm, ⟨103, _⟩ => ⟨S3200000x1, .i32⟩
  | .hbm, ⟨104, _⟩ => ⟨S100000x64, .f32⟩
  | .hbm, ⟨105, _⟩ => ⟨S100000x1, .f32⟩
  | .hbm, ⟨106, _⟩ => ⟨S_, .i32⟩
  | .hbm, ⟨107, _⟩ => ⟨S_, .f32⟩
  | .hbm, ⟨108, _⟩ => ⟨S64x128, .f32⟩
  | .hbm, ⟨109, _⟩ => ⟨S_, .i32⟩
  | .hbm, ⟨110, _⟩ => ⟨S_, .f32⟩
  | .hbm, ⟨111, _⟩ => ⟨S128, .f32⟩
  | .hbm, ⟨112, _⟩ => ⟨S100000x128, .f32⟩
  | .hbm, ⟨113, _⟩ => ⟨S100000x30, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S64x64, .f32⟩
  | .local _ .vmem, ⟨5, _⟩ => ⟨S64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S64x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_call2_v0 : Ref sig .tc := ⟨.hbm, 75, rfl⟩
abbrev main_call2_v1 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_cst_17 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_18 : Ref sig .tc := ⟨.hbm, 85, rfl⟩
abbrev main_call3_v0 : Ref sig .tc := ⟨.hbm, 86, rfl⟩
abbrev main_call3_v1 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_19 : Ref sig .tc := ⟨.hbm, 92, rfl⟩
abbrev main_v56 : Ref sig .tc := ⟨.hbm, 93, rfl⟩
abbrev main_v57 : Ref sig .tc := ⟨.hbm, 94, rfl⟩
abbrev main_c_20 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_21 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_22 : Ref sig .tc := ⟨.hbm, 106, rfl⟩
abbrev main_call4_v0 : Ref sig .tc := ⟨.hbm, 107, rfl⟩
abbrev main_v67 : Ref sig .tc := ⟨.hbm, 108, rfl⟩
abbrev main_c_23 : Ref sig .tc := ⟨.hbm, 109, rfl⟩
abbrev main_call5_v0 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  pads_S64x30_S64x128_000_0980 : S64x30.Pads (![0, 0] : Fin 2 → Nat) ![0, 98] ![0, 0] S64x128
  h_S_ : 0 < S_.numel
  pads_S30_S128_0980 : S30.Pads (![0] : Fin 1 → Nat) ![98] ![0] S128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x30_0_0 : S100000x128.Slices ![0, 0] S100000x30
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v31) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v65) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S64x30 : Shape := ⟨2, ![64, 30]⟩
abbrev S30 : Shape := ⟨1, ![30]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩
abbrev S1x64 : Shape := ⟨2, ![1, 64]⟩
abbrev S100000x30 : Shape := ⟨2, ![100000, 30]⟩
abbrev S1x30 : Shape := ⟨2, ![1, 30]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S64x64, .f32⟩
  | .hbm, ⟨4, _⟩ => ⟨S64, .f32⟩
  | .hbm, ⟨5, _⟩ => ⟨S64x30, .f32⟩
  | .hbm, ⟨6, _⟩ => ⟨S30, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x64, .f32⟩
  | .hbm, ⟨51, _⟩ => ⟨S_, .f32⟩
  | .hbm, ⟨52, _⟩ => ⟨S100000x64, .f32⟩
  | .hbm, ⟨53, _⟩ => ⟨S3200000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S3200000, .f32⟩
  | .hbm, ⟨67, _⟩ => ⟨S_, .f32⟩
  | .hbm, ⟨68, _⟩ => ⟨S100000, .f32⟩
  | .hbm, ⟨69, _⟩ => ⟨S3200000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S3200000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .i1⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S3200000, .i32⟩
  | .hbm, ⟨102, _⟩ => ⟨S3200000, .i1⟩
  | .hbm, ⟨103, _⟩ => ⟨S_, .i32⟩
  | .hbm, ⟨104, _⟩ => ⟨S3200000, .i32⟩
  | .hbm, ⟨105, _⟩ => ⟨S3200000, .i32⟩
  | .hbm, ⟨106, _⟩ => ⟨S3200000, .i32⟩
  | .hbm, ⟨107, _⟩ => ⟨S3200000x1, .i32⟩
  | .hbm, ⟨108, _⟩ => ⟨S3200000x64, .f32⟩
  | .hbm, ⟨109, _⟩ => ⟨S_, .f32⟩
  | .hbm, ⟨110, _⟩ => ⟨S100000x64, .f32⟩
  | .hbm, ⟨111, _⟩ => ⟨S3200000x1, .i32⟩
  | .hbm, ⟨112, _⟩ => ⟨S100000x64, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x30, .f32⟩
  | .hbm, ⟨117, _⟩ => ⟨S1x30, .f32⟩
  | .hbm, ⟨118, _⟩ => ⟨S100000x30, .f32⟩
  | .hbm, ⟨119, _⟩ => ⟨S100000x30, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_19 : Ref sig .tc := ⟨.hbm, 100, rfl⟩
abbrev main_v62 : Ref sig .tc := ⟨.hbm, 101, rfl⟩
abbrev main_v63 : Ref sig .tc := ⟨.hbm, 102, rfl⟩
abbrev main_c_20 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x30_S100000x30_1_0_0_1_n_n_wf : DotDims.WF S100000x64 S64x30 S100000x30 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x30_S100000x30_1_0_0_1_n_n : DotDims S100000x64 S64x30 S100000x30 where
  lhsContracting := [1]
  rhsContracting := [0]
  lhsNonContracting := [0]
  rhsNonContracting := [1]
  lhsBatch := []
  rhsBatch := []
  wf := dot_S100000x64_S64x30_S100000x30_1_0_0_1_n_n_wf

class Facts : Prop extends Facts₀ where

variable [Facts]
-- ==== Proof.Payload.lean ====
/-
  What each dense kernel body stores, read at one entry of its output block.

  A body loads a block of 2000 rows of aggregated features `x0`, the 2000 matching node factors `x1` (a column),
  the whole weight matrix `x2` and the bias `x3`; scales every row by its node's factor, multiplies by the
  weights into a zero accumulator, adds the bias across rows, and (first layer only) clamps at zero. At entry
  `(p, q)` of the block that is

      (Σ_k (x0[p,k] · x1[p,0]) · x2[k,q]) + x3[q]

  over the extended reals: the product is a plain sum at the ideal instance, a column broadcast reads its row's one
  entry, a row broadcast its column's.
-/
import proofs.«419624_j51771535786306_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A column `[a, 1]` broadcast across `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first body's matrix product, read at an entry -/

theorem first_lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem first_lhs_contr (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem first_rhs_contr (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem first_rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block's product into a zero accumulator, at entry `(p, q)`: the sum over the 64 shared features of the
    left block's row `p` against the right block's column `q`. -/
theorem first_matmul_apply (l : FVec Ideal S2000x64 .f32) (r : FVec Ideal S64x64 .f32) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact first_lhs_row _ _
    | ⟨1, _⟩ => exact (first_lhs_contr _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (first_rhs_contr _ _).trans hk
    | ⟨1, _⟩ => exact first_rhs_col _ _)
  rw [el, er]

/-! ## The second body's matrix product, read at an entry -/

theorem second_lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem second_lhs_contr (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem second_rhs_contr (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem second_rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The block's product into a zero accumulator, at entry `(p, q)`: the sum over the 64 shared features of the
    left block's row `p` against the right block's column `q`. -/
theorem second_matmul_apply (l : FVec Ideal S2000x64 .f32) (r : FVec Ideal S64x128 .f32) (p : Fin 2000) (q : Fin 128) :
    matmul dot_S2000x64_S64x128_S2000x128_1_0_0_1_n_n none l r (constant (F := Ideal) S2000x128 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact second_lhs_row _ _
    | ⟨1, _⟩ => exact (second_lhs_contr _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (second_rhs_contr _ _).trans hk
    | ⟨1, _⟩ => exact second_rhs_col _ _)
  rw [el, er]

/-! ## The two payloads at an entry -/

/-- The first layer's stored value at `(p, q)`: the scaled row sum plus the bias, clamped below at zero. -/
theorem first_payload_apply (x0 : Vec Ideal S2000x64 .f32) (x1 : Vec Ideal S2000x1 .f32) (x2 : Vec Ideal S64x64 .f32)
    (x3 : Vec Ideal S64 .f32) (p : Fin 2000) (q : Fin 64) :
    k0_pay1 x0 x1 x2 x3 (ix2 p q)
      = max ((∑ k : Fin 64, (x0 (ix2 p k) * x1 (ix2 p (0 : Fin 1))) * x2 (ix2 k q)) + x3 (ix1 q)) (Ideal.ofBits .f32 0x00000000#32) := by
  unfold k0_pay1
  show max (FloatOps.addf _ _) _ = _
  rw [show (broadcast S2000x64 (Scalar.ofBits (F := Ideal) .f32 0x00000000#32) (ix2 p q) : EReal) = Ideal.ofBits .f32 0x00000000#32 from rfl]
  refine congrArg (fun z => max z _) ?_
  show _ + _ = _
  rw [first_matmul_apply, broadcastTo_1b_ab_apply, shapeCast_a_1a_apply]
  refine congrArg (fun z : EReal => z + x3 (ix1 q)) (Finset.sum_congr rfl fun k _ => ?_)
  rw [mulf_apply, shapeCast_self, broadcastTo_a1_ab_apply, shapeCast_self]

/-- The second layer's stored value at `(p, q)`: the scaled row sum plus the bias. -/
theorem second_payload_apply (x0 : Vec Ideal S2000x64 .f32) (x1 : Vec Ideal S2000x1 .f32) (x2 : Vec Ideal S64x128 .f32)
    (x3 : Vec Ideal S128 .f32) (p : Fin 2000) (q : Fin 128) :
    k1_pay1 x0 x1 x2 x3 (ix2 p q)
      = (∑ k : Fin 64, (x0 (ix2 p k) * x1 (ix2 p (0 : Fin 1))) * x2 (ix2 k q)) + x3 (ix1 q) := by
  unfold k1_pay1
  simp only [shapeCast_self]
  show _ + _ = _
  rw [second_matmul_apply, broadcastTo_1b_ab_apply, shapeCast_a_1a_apply]
  refine congrArg (fun z : EReal => z + x3 (ix1 q)) (Finset.sum_congr rfl fun k _ => ?_)
  rw [mulf_apply, broadcastTo_a1_ab_apply]

end Cert.KernelIdeal.Payload

end
-- ==== Proof.DenseSpec.lean ====
/-
  The dense stage of one graph-convolution layer, as a function of arrays, index by index.

  A layer first aggregates node features over the edges (the same computation in both programs, never opened
  here) into an array `A` of 100000 rows of 64 features, and a column `N` of one factor per node (the inverse
  square root of the node's in-degree). The dense stage then forms, for node `r` and output feature `j`,

      (Σ_k (A[r,k] · N[r,0]) · W[k,j]) + b[j]

  over the extended reals; the first layer clamps this below at zero. The sum is written over `Fin 64` in the
  order and grouping both programs' products have, so neither distributivity nor finiteness is needed to join
  them: each side is shown to BE this term.
-/
import Idealize.ShloMosaic.PureOps.Ideal
import Idealize.ShloMosaic.Lib.ValueIdx

noncomputable section

open scoped BigOperators

namespace Cert.GraphDense

open Idealize.ShloMosaic Idealize.ShloMosaic.ValueIdx

/-- An f32 array of the given shape at the ideal instance: one extended real per index. -/
abbrev Arr (s : Shape) : Type := (⟨s, .f32⟩ : BufTy).Contents (Elt Ideal)

/-- The zero both programs clamp against, kept as the word it is printed with. -/
abbrev zeroWord : EReal := Ideal.ofBits .f32 0x00000000#32

/-- Entry `(r, j)` of the dense stage: row `r` of the aggregated features, each scaled by the node's factor,
    against column `j` of the weights, plus the bias of feature `j`. -/
def denseEntry {n : Nat} (A : Arr ⟨2, ![100000, 64]⟩) (N : Arr ⟨2, ![100000, 1]⟩) (W : Arr ⟨2, ![64, n]⟩)
    (b : Arr ⟨1, ![n]⟩) (r : Fin 100000) (j : Fin n) : EReal :=
  (∑ k : Fin 64, (A (ix2 r k) * N (ix2 r (0 : Fin 1))) * W (ix2 k j)) + b (ix1 j)

/-- The first layer's dense stage as a whole array: every entry clamped below at zero. -/
def dense1 (A : Arr ⟨2, ![100000, 64]⟩) (N : Arr ⟨2, ![100000, 1]⟩) (W : Arr ⟨2, ![64, 64]⟩)
    (b : Arr ⟨1, ![64]⟩) : Arr ⟨2, ![100000, 64]⟩ :=
  fun i => max (denseEntry A N W b (i 0) (i 1)) zeroWord

/-- The second layer's dense stage as a whole array of `n` output features (no clamp). -/
def dense2 (n : Nat) (A : Arr ⟨2, ![100000, 64]⟩) (N : Arr ⟨2, ![100000, 1]⟩) (W : Arr ⟨2, ![64, n]⟩)
    (b : Arr ⟨1, ![n]⟩) : Arr ⟨2, ![100000, n]⟩ :=
  fun i => denseEntry A N W b (i 0) (i 1)

theorem dense1_apply (A : Arr ⟨2, ![100000, 64]⟩) (N : Arr ⟨2, ![100000, 1]⟩) (W : Arr ⟨2, ![64, 64]⟩)
    (b : Arr ⟨1, ![64]⟩) (r : Fin 100000) (j : Fin 64) :
    dense1 A N W b (ix2 r j) = max (denseEntry A N W b r j) zeroWord := rfl

theorem dense2_apply (n : Nat) (A : Arr ⟨2, ![100000, 64]⟩) (N : Arr ⟨2, ![100000, 1]⟩) (W : Arr ⟨2, ![64, n]⟩)
    (b : Arr ⟨1, ![n]⟩) (r : Fin 100000) (j : Fin n) :
    dense2 n A N W b (ix2 r j) = denseEntry A N W b r j := rfl

end Cert.GraphDense

end
-- ==== Proof.RegionFirst.lean ====
/-
  The first layer's dense stage, from blocks to the whole array.

  The pallas_call walks 50 grid points; point `t` is handed rows `2000·t … 2000·t + 1999` of the aggregated
  features and of the node factors, the whole weight matrix and the whole bias, and writes back rows
  `2000·t …` of the output. So what point `t` writes back is block `t` of ONE whole-array function — entry
  `(r, j)` is the clamped, scaled row sum of row `r` against weight column `j` plus bias `j` — and since the 50
  blocks tile the 100000 rows, the output array ends holding that function. Stated at the contents `V` the region is
  entered with, whatever they are.
-/
import proofs.«419624_j51771535786306_4_alg».proof.Proof.Gen.KernelIdeal.Frame
import proofs.«419624_j51771535786306_4_alg».proof.Proof.Payload
import proofs.«419624_j51771535786306_4_alg».proof.Proof.DenseSpec
import Idealize.ShloMosaic.Lib.Pipeline.Value

set_option maxRecDepth 16384

noncomputable section

open scoped BigOperators

namespace Cert.KernelIdeal.RegionFirst

open Cert.KernelIdeal Cert.KernelIdeal.Gen Cert.KernelIdeal.Payload Cert.GraphDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_pair : (![0, 0] : Fin 2 → Nat) = fun _ => 0 := funext fun a => by fin_cases a <;> rfl
theorem zero_single : (![0] : Fin 1 → Nat) = fun _ => 0 := funext fun a => by fin_cases a <;> rfl

/-- The printed index maps, decided over the 50 grid points: point `t` takes row block `t` of the features, of the
    factors and of the output, and block 0 (the whole) of the weights and of the bias. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of block `t` is a row of the array. -/
theorem row_lt (t : Fin cfg0.N) (p : Fin 2000) : t.val * 2000 + p.val < 100000 := by
  have ht : t.val < 50 := lt_of_lt_of_eq t.isLt N_0
  have hp := p.isLt
  omega

/-- Entry `(p, k)` of point `t`'s block of aggregated features is entry `(2000·t + p, k)` of the array. -/
theorem read_features (c : Dev nD) (t : Fin cfg0.N) (p : Fin 2000) (k : Fin 64) :
    iblk0 V c 0 t (ix2 p k) = V c main_v31 (ix2 (⟨t.val * 2000 + p.val, row_lt t p⟩ : Fin 100000) k) := by
  obtain ⟨e0, e1, -⟩ := block_of_point t
  show V c main_v31 (((cfg0.win 0).blk t).view.emb (ix2 p k)) = _
  refine congrArg (V c main_v31) (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

/-- Entry `p` of point `t`'s block of node factors is the factor of node `2000·t + p`. -/
theorem read_factor (c : Dev nD) (t : Fin cfg0.N) (p : Fin 2000) :
    iblk0 V c 1 t (ix2 p (0 : Fin 1)) = V c main_v32 (ix2 (⟨t.val * 2000 + p.val, row_lt t p⟩ : Fin 100000) (0 : Fin 1)) := by
  obtain ⟨-, -, e2, e3, -⟩ := block_of_point t
  show V c main_v32 (((cfg0.win 1).blk t).view.emb (ix2 p (0 : Fin 1))) = _
  refine congrArg (V c main_v32) (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

/-- Every point's weight block is the whole weight matrix. -/
theorem read_weight (c : Dev nD) (t : Fin cfg0.N) (k : Fin 64) (q : Fin 64) :
    iblk0 V c 2 t (ix2 k q) = V c main_arg3 (ix2 k q) := by
  obtain ⟨-, -, -, -, e4, e5, -⟩ := block_of_point t
  show V c main_arg3 (((cfg0.win 2).blk t).view.emb (ix2 k q)) = _
  refine congrArg (V c main_arg3) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- Every point's bias block is the whole bias. -/
theorem read_bias (c : Dev nD) (t : Fin cfg0.N) (q : Fin 64) :
    iblk0 V c 3 t (ix1 q) = V c main_arg4 (ix1 q) := by
  obtain ⟨-, -, -, -, -, -, e6, -⟩ := block_of_point t
  show V c main_arg4 (((cfg0.win 3).blk t).view.emb (ix1 q)) = _
  refine congrArg (V c main_arg4) (funext fun a => Fin.ext ?_)
  match a with
  | ⟨0, _⟩ => show win0_3.index t (0 : Fin 1) * 64 + 1 * q.val = q.val; omega

/-- WHAT POINT `t` WRITES BACK is block `t` of the dense stage of the arrays the region finds. -/
theorem flushed_is_dense (c : Dev nD) (t : Fin cfg0.N) :
    (dat0 V c).flushed 4 t
      = ((cfg0.win 4).blk t).view.read (Elt Ideal) (dense1 (V c main_v31) (V c main_v32) (V c main_arg3) (V c main_arg4)) := by
  show (cfg0.win 4).cut (grid0.coords t) ((dat0 V c).after 4 t) = _
  rw [after0_4]
  unfold out0_4
  rw [View.canon_unit_zero zero_pair]
  simp only [View.ld_unit_zero (S := S2000x64) zero_pair, View.ld_unit_zero (S := S2000x1) zero_pair,
    View.ld_unit_zero (S := S64x64) zero_pair, View.ld_unit_zero (S := S64) zero_single]
  refine funext fun (j : S2000x64.Idx) => ?_
  obtain ⟨p, q, rfl⟩ : ∃ (p : Fin 2000) (q : Fin 64), j = ix2 p q := ⟨j 0, j 1, eq_ix2 j⟩
  obtain ⟨-, -, -, -, -, -, -, e7, e8⟩ := block_of_point t
  have hemb : ((cfg0.win 4).blk t).view.emb (ix2 p q) = ix2 (⟨t.val * 2000 + p.val, row_lt t p⟩ : Fin 100000) q :=
    funext fun a => Fin.ext (by
      match a with
      | ⟨0, _⟩ => show win0_4.index t (0 : Fin 2) * 2000 + 1 * p.val = t.val * 2000 + p.val; omega
      | ⟨1, _⟩ => show win0_4.index t (1 : Fin 2) * 64 + 1 * q.val = q.val; omega)
  refine (first_payload_apply (iblk0 V c 0 t) (iblk0 V c 1 t) (iblk0 V c 2 t) (iblk0 V c 3 t) p q).trans ?_
  show _ = dense1 (V c main_v31) (V c main_v32) (V c main_arg3) (V c main_arg4) (((cfg0.win 4).blk t).view.emb (ix2 p q))
  rw [hemb, dense1_apply]
  unfold denseEntry
  refine congrArg (fun z : EReal => max z zeroWord) ?_
  rw [read_bias V c t q]
  refine congrArg (fun z : EReal => z + V c main_arg4 (ix1 q)) (Finset.sum_congr rfl fun k _ => ?_)
  rw [read_features V c t p k, read_factor V c t p, read_weight V c t k q]

/-- An index of the output array is in point `t`'s block iff each coordinate is in the block's range on its axis. -/
theorem mem_block (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v33).slice (win0_4.rect t)).set ↔ _
  rw [View.set_slice_whole, Rect.mem_set_unit]
  exact Iff.rfl

/-- The 50 blocks tile the rows: row `r` is in the block of point `r / 2000`. -/
theorem blocks_cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨-, -, -, -, -, -, -, e7, e8⟩ := block_of_point t
  refine ⟨t, flush0_4 t, ?_⟩
  rw [mem_block]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-- THE OUTPUT ARRAY after the region is the dense stage of the arrays the region was entered with. -/
theorem array_is_dense (c : Dev nD) :
    (dat0 V c).arrAt 4 cfg0.N = dense1 (V c main_v31) (V c main_v32) (V c main_arg3) (V c main_arg4) :=
  (dat0 V c).arrAt_eq_of_cover 4 _ (fun t _ => flushed_is_dense V c t) blocks_cover

end Cert.KernelIdeal.RegionFirst

end
-- ==== Proof.RegionSecond.lean ====
/-
  The second layer's dense stage, from blocks to the whole array.

  The second pallas_call has the first one's shape: 50 grid points, point `t` handed rows `2000·t … 2000·t + 1999`
  of the aggregated features and of the node factors, the whole (widened, 128-column) weight matrix and bias, and
  writing back rows `2000·t …` of a 128-column output. What point `t` writes back is block `t` of the whole-array
  dense stage — entry `(r, j)` the scaled row sum of row `r` against weight column `j` plus bias `j`, with no clamp —
  and the 50 blocks tile the rows, so the output array ends holding it. Stated at the contents `V` the region is
  entered with.
-/
import proofs.«419624_j51771535786306_4_alg».proof.Proof.Gen.KernelIdeal.Frame
import proofs.«419624_j51771535786306_4_alg».proof.Proof.Payload
import proofs.«419624_j51771535786306_4_alg».proof.Proof.DenseSpec
import Idealize.ShloMosaic.Lib.Pipeline.Value

set_option maxRecDepth 16384

noncomputable section

open scoped BigOperators

namespace Cert.KernelIdeal.RegionSecond

open Cert.KernelIdeal Cert.KernelIdeal.Gen Cert.KernelIdeal.Payload Cert.GraphDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_pair : (![0, 0] : Fin 2 → Nat) = fun _ => 0 := funext fun a => by fin_cases a <;> rfl
theorem zero_single : (![0] : Fin 1 → Nat) = fun _ => 0 := funext fun a => by fin_cases a <;> rfl

/-- The printed index maps, decided over the 50 grid points: point `t` takes row block `t` of the features, of the
    factors and of the output, and block 0 (the whole) of the weights and of the bias. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `p` of block `t` is a row of the array. -/
theorem row_lt (t : Fin cfg1.N) (p : Fin 2000) : t.val * 2000 + p.val < 100000 := by
  have ht : t.val < 50 := lt_of_lt_of_eq t.isLt N_1
  have hp := p.isLt
  omega

/-- Entry `(p, k)` of point `t`'s block of aggregated features is entry `(2000·t + p, k)` of the array. -/
theorem read_features (c : Dev nD) (t : Fin cfg1.N) (p : Fin 2000) (k : Fin 64) :
    iblk1 V c 0 t (ix2 p k) = V c main_v65 (ix2 (⟨t.val * 2000 + p.val, row_lt t p⟩ : Fin 100000) k) := by
  obtain ⟨e0, e1, -⟩ := block_of_point t
  show V c main_v65 (((cfg1.win 0).blk t).view.emb (ix2 p k)) = _
  refine congrArg (V c main_v65) (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * k.val = k.val; omega

/-- Entry `p` of point `t`'s block of node factors is the factor of node `2000·t + p`. -/
theorem read_factor (c : Dev nD) (t : Fin cfg1.N) (p : Fin 2000) :
    iblk1 V c 1 t (ix2 p (0 : Fin 1)) = V c main_v66 (ix2 (⟨t.val * 2000 + p.val, row_lt t p⟩ : Fin 100000) (0 : Fin 1)) := by
  obtain ⟨-, -, e2, e3, -⟩ := block_of_point t
  show V c main_v66 (((cfg1.win 1).blk t).view.emb (ix2 p (0 : Fin 1))) = _
  refine congrArg (V c main_v66) (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

/-- Every point's weight block is the whole weight matrix. -/
theorem read_weight (c : Dev nD) (t : Fin cfg1.N) (k : Fin 64) (q : Fin 128) :
    iblk1 V c 2 t (ix2 k q) = V c main_v67 (ix2 k q) := by
  obtain ⟨-, -, -, -, e4, e5, -⟩ := block_of_point t
  show V c main_v67 (((cfg1.win 2).blk t).view.emb (ix2 k q)) = _
  refine congrArg (V c main_v67) (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- Every point's bias block is the whole bias. -/
theorem read_bias (c : Dev nD) (t : Fin cfg1.N) (q : Fin 128) :
    iblk1 V c 3 t (ix1 q) = V c main_v68 (ix1 q) := by
  obtain ⟨-, -, -, -, -, -, e6, -⟩ := block_of_point t
  show V c main_v68 (((cfg1.win 3).blk t).view.emb (ix1 q)) = _
  refine congrArg (V c main_v68) (funext fun a => Fin.ext ?_)
  match a with
  | ⟨0, _⟩ => show win1_3.index t (0 : Fin 1) * 128 + 1 * q.val = q.val; omega

/-- WHAT POINT `t` WRITES BACK is block `t` of the (unclamped, 128-column) dense stage of the arrays the region finds. -/
theorem flushed_is_dense (c : Dev nD) (t : Fin cfg1.N) :
    (dat1 V c).flushed 4 t
      = ((cfg1.win 4).blk t).view.read (Elt Ideal) (dense2 128 (V c main_v65) (V c main_v66) (V c main_v67) (V c main_v68)) := by
  show (cfg1.win 4).cut (grid1.coords t) ((dat1 V c).after 4 t) = _
  rw [after1_4]
  unfold out1_4
  rw [View.canon_unit_zero zero_pair]
  simp only [View.ld_unit_zero (S := S2000x64) zero_pair, View.ld_unit_zero (S := S2000x1) zero_pair,
    View.ld_unit_zero (S := S64x128) zero_pair, View.ld_unit_zero (S := S128) zero_single]
  refine funext fun (j : S2000x128.Idx) => ?_
  obtain ⟨p, q, rfl⟩ : ∃ (p : Fin 2000) (q : Fin 128), j = ix2 p q := ⟨j 0, j 1, eq_ix2 j⟩
  obtain ⟨-, -, -, -, -, -, -, e7, e8⟩ := block_of_point t
  have hemb : ((cfg1.win 4).blk t).view.emb (ix2 p q) = ix2 (⟨t.val * 2000 + p.val, row_lt t p⟩ : Fin 100000) q :=
    funext fun a => Fin.ext (by
      match a with
      | ⟨0, _⟩ => show win1_4.index t (0 : Fin 2) * 2000 + 1 * p.val = t.val * 2000 + p.val; omega
      | ⟨1, _⟩ => show win1_4.index t (1 : Fin 2) * 128 + 1 * q.val = q.val; omega)
  refine (second_payload_apply (iblk1 V c 0 t) (iblk1 V c 1 t) (iblk1 V c 2 t) (iblk1 V c 3 t) p q).trans ?_
  show _ = dense2 128 (V c main_v65) (V c main_v66) (V c main_v67) (V c main_v68) (((cfg1.win 4).blk t).view.emb (ix2 p q))
  rw [hemb, dense2_apply]
  unfold denseEntry
  rw [read_bias V c t q]
  refine congrArg (fun z : EReal => z + V c main_v68 (ix1 q)) (Finset.sum_congr rfl fun k _ => ?_)
  rw [read_features V c t p k, read_factor V c t p, read_weight V c t k q]

/-- An index of the output array is in point `t`'s block iff each coordinate is in the block's range on its axis. -/
theorem mem_block (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v69).slice (win1_4.rect t)).set ↔ _
  rw [View.set_slice_whole, Rect.mem_set_unit]
  exact Iff.rfl

/-- The 50 blocks tile the rows: row `r` is in the block of point `r / 2000`. -/
theorem blocks_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨-, -, -, -, -, -, -, e7, e8⟩ := block_of_point t
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE OUTPUT ARRAY after the region is the dense stage of the arrays the region was entered with. -/
theorem array_is_dense (c : Dev nD) :
    (dat1 V c).arrAt 4 cfg1.N = dense2 128 (V c main_v65) (V c main_v66) (V c main_v67) (V c main_v68) :=
  (dat1 V c).arrAt_eq_of_cover 4 _ (fun t _ => flushed_is_dense V c t) blocks_cover

end Cert.KernelIdeal.RegionSecond

end
-- ==== Proof.Aggregate.lean ====
/-
  The sparse half of a graph-convolution layer, named once.

  Both programs compute, with the same host operations in the same order, from node features `h` and the edge
  lists `src`, `dst`:

    * `degree e`        — for each node, how many edges have it as their endpoint in `e`: ones added onto zeros;
    * `invSqrtDegree e` — 1/sqrt of that where it is positive (the degree clamped at 1e-30 first), zero elsewhere;
    * `aggregate h src dst` — every edge carries its source node's row of `h`, scaled by the source's
      out-degree factor, to its destination, where the rows are added up;
    * `nodeColumn dst`  — the in-degree factor as a column, one entry per node.

  The second layer also widens its weights and bias with zeros to 128 columns (`padWeights`, `padBias`).
  None of these is ever opened: the certificate only needs that both programs apply the SAME function to equal
  arguments. They are stated for any float instance.
-/
import proofs.«419624_j51771535786306_4_alg».proof.Proof.Gen.KernelIdeal

noncomputable section

namespace Cert.KernelIdeal.Agg

open Idealize.ShloMosaic Cert.KernelIdeal Cert.KernelIdeal.Gen

variable {F : FTy → Type} [FloatOps F]

/-- For each node, the number of edges whose endpoint in `e` it is. -/
def degree (e : (⟨S3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (broadcastInDim S3200000x1 ![0] bcast_S3200000_S3200000x1_0 e)
    (broadcastInDim S3200000 ![] bcast_S_S3200000 (constant S_ .f32 0x3F800000#32))

/-- The degree's inverse square root where the degree is positive, zero elsewhere. -/
def invSqrtDegree (e : (⟨S3200000, .i32⟩ : BufTy).Contents (Elt F)) : (⟨S100000, .f32⟩ : BufTy).Contents (Elt F) :=
  select (cmpf .ogt (degree e) (broadcastInDim S100000 ![] bcast_S_S100000 (constant S_ .f32 0x00000000#32)))
    (Host.rsqrt (maximumf (degree e) (broadcastInDim S100000 ![] bcast_S_S100000 (constant S_ .f32 0x0DA24260#32))))
    (broadcastInDim S100000 ![] bcast_S_S100000 (id (constant S_ .f32 0x00000000#32)))

/-- The degree factor as a column: one entry per node. -/
def nodeColumn (e : (⟨S3200000, .i32⟩ : BufTy).Contents (Elt F)) : (⟨S100000x1, .f32⟩ : BufTy).Contents (Elt F) :=
  broadcastInDim S100000x1 ![0] bcast_S100000_S100000x1_0 (invSqrtDegree e)

/-- Rows of `h`, scaled by the source's out-degree factor, carried along every edge and added up at its destination. -/
def aggregate (h : (⟨S100000x64, .f32⟩ : BufTy).Contents (Elt F)) (src dst : (⟨S3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Host.gather gather_S100000x64_S3200000x1_S3200000x64_1_0_n_n_0_1_164
      (mulf h (broadcastInDim S100000x64 ![0, 1] bcast_S100000x1_S100000x64_0_1 (nodeColumn src)))
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32)))
          src)))

/-- The second layer's weights widened with zeros from 30 to 128 columns. -/
def padWeights (w : (⟨S64x30, .f32⟩ : BufTy).Contents (Elt F)) : (⟨S64x128, .f32⟩ : BufTy).Contents (Elt F) :=
  pad S64x128 ![0, 0] ![0, 98] ![0, 0] w (sitofp .f32 (constantI S_ 32 0#32)) pads_S64x30_S64x128_000_0980 h_S_

/-- The second layer's bias widened with zeros from 30 to 128 entries. -/
def padBias (b : (⟨S30, .f32⟩ : BufTy).Contents (Elt F)) : (⟨S128, .f32⟩ : BufTy).Contents (Elt F) :=
  pad S128 ![0] ![98] ![0] b (sitofp .f32 (constantI S_ 32 0#32)) pads_S30_S128_0980 h_S_

end Cert.KernelIdeal.Agg

end
-- ==== Proof.HostBefore.lean ====
/-
  What the first pallas_call finds in its operand arrays.

  The host operations before it compute the two degree factors from the edge lists and aggregate the input
  features along the edges; the weights and the bias come straight from the launch memory. Read off the fold of
  those operations over the launch memory, the aggregated features are `aggregate x src dst` and the factor column
  is `nodeColumn dst` — the named functions, not opened.
-/
import proofs.«419624_j51771535786306_4_alg».proof.Proof.Gen.KernelIdeal.Frame
import proofs.«419624_j51771535786306_4_alg».proof.Proof.Aggregate
import Idealize.ShloMosaic.Lib.StableHlo.Run

set_option maxRecDepth 16384

noncomputable section

namespace Cert.KernelIdeal.HostBefore

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The aggregated features the first pallas_call reads. -/
theorem entry_features (c : Dev nD) :
    V5 m ρ c main_v31 = aggregate (m ((c : Thread nD τ).loc main_arg0)) (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v31) = _
  simp only [hostOps0, hostOps0_1, hostOps0_2, hostOps0_3, hostOps0_4]
  after_results
  try simp only [TRef.ofBuf, TRef.toBuf, cast_eq]
  rfl

set_option maxHeartbeats 4000000 in
/-- The in-degree factor column the first pallas_call reads. -/
theorem entry_factor (c : Dev nD) :
    V5 m ρ c main_v32 = nodeColumn (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v32) = _
  simp only [hostOps0, hostOps0_1, hostOps0_2, hostOps0_3, hostOps0_4]
  after_results
  try simp only [TRef.ofBuf, TRef.toBuf, cast_eq]
  rfl

/-- No host operation before the first pallas_call writes `main_arg1`: it is still as launched. -/
theorem entry_main_arg1 (c : Dev nD) : V5 m ρ c main_arg1 = m ((c : Thread nD τ).loc main_arg1) :=
  calc W5 m ρ c (Proc.devRef .tc main_arg1)
    _ = W4 m ρ c (Proc.devRef .tc main_arg1) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg1) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg1) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- No host operation before the first pallas_call writes `main_arg2`: it is still as launched. -/
theorem entry_main_arg2 (c : Dev nD) : V5 m ρ c main_arg2 = m ((c : Thread nD τ).loc main_arg2) :=
  calc W5 m ρ c (Proc.devRef .tc main_arg2)
    _ = W4 m ρ c (Proc.devRef .tc main_arg2) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg2) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- No host operation before the first pallas_call writes `main_arg3`: it is still as launched. -/
theorem entry_main_arg3 (c : Dev nD) : V5 m ρ c main_arg3 = m ((c : Thread nD τ).loc main_arg3) :=
  calc W5 m ρ c (Proc.devRef .tc main_arg3)
    _ = W4 m ρ c (Proc.devRef .tc main_arg3) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg3) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg3) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- No host operation before the first pallas_call writes `main_arg4`: it is still as launched. -/
theorem entry_main_arg4 (c : Dev nD) : V5 m ρ c main_arg4 = m ((c : Thread nD τ).loc main_arg4) :=
  calc W5 m ρ c (Proc.devRef .tc main_arg4)
    _ = W4 m ρ c (Proc.devRef .tc main_arg4) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg4) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg4) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- No host operation before the first pallas_call writes `main_arg5`: it is still as launched. -/
theorem entry_main_arg5 (c : Dev nD) : V5 m ρ c main_arg5 = m ((c : Thread nD τ).loc main_arg5) :=
  calc W5 m ρ c (Proc.devRef .tc main_arg5)
    _ = W4 m ρ c (Proc.devRef .tc main_arg5) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- No host operation before the first pallas_call writes `main_arg6`: it is still as launched. -/
theorem entry_main_arg6 (c : Dev nD) : V5 m ρ c main_arg6 = m ((c : Thread nD τ).loc main_arg6) :=
  calc W5 m ρ c (Proc.devRef .tc main_arg6)
    _ = W4 m ρ c (Proc.devRef .tc main_arg6) := StableHlo.after_of_forall_not_mem _ _ (List.forall_iff_forall_mem.mp (by
      simp only [hostOps0_4, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg6) := StableHlo.after_of_forall_not_mem _ _ (List.forall_iff_forall_mem.mp (by
      simp only [hostOps0_3, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := StableHlo.after_of_forall_not_mem _ _ (List.forall_iff_forall_mem.mp (by
      simp only [hostOps0_2, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem _ _ (List.forall_iff_forall_mem.mp (by
      simp only [hostOps0_1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

end Cert.KernelIdeal.HostBefore

end
-- ==== Proof.HostBetween.lean ====
/-
  What the second pallas_call finds in its operand arrays.

  Between the two pallas_calls the host repeats the degree factors and the aggregation, now over the first
  pallas_call's output array, and widens the second layer's weights and bias with zeros. Read off the fold of those
  operations over the contents the first region leaves: the aggregated features are `aggregate h src dst` with `h`
  the first region's output array, the factor column is `nodeColumn dst`, the weights `padWeights W2`, the bias
  `padBias b2`.
-/
import proofs.«419624_j51771535786306_4_alg».proof.Proof.Gen.KernelIdeal.Frame
import proofs.«419624_j51771535786306_4_alg».proof.Proof.Aggregate
import proofs.«419624_j51771535786306_4_alg».proof.Proof.HostBefore
import Idealize.ShloMosaic.Lib.StableHlo.Run

set_option maxRecDepth 16384

noncomputable section

namespace Cert.KernelIdeal.HostBetween

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge lists and the second layer's parameters pass the first region untouched. -/
theorem exit_src (c : Dev nD) : W6 m ρ c (Proc.devRef .tc main_arg1) = m ((c : Thread nD τ).loc main_arg1) :=
  (W6_of_ne m ρ c main_arg1 (by decide)).trans (HostBefore.entry_main_arg1 m ρ c)
theorem exit_dst (c : Dev nD) : W6 m ρ c (Proc.devRef .tc main_arg2) = m ((c : Thread nD τ).loc main_arg2) :=
  (W6_of_ne m ρ c main_arg2 (by decide)).trans (HostBefore.entry_main_arg2 m ρ c)
theorem exit_weights (c : Dev nD) : W6 m ρ c (Proc.devRef .tc main_arg5) = m ((c : Thread nD τ).loc main_arg5) :=
  (W6_of_ne m ρ c main_arg5 (by decide)).trans (HostBefore.entry_main_arg5 m ρ c)
theorem exit_bias (c : Dev nD) : W6 m ρ c (Proc.devRef .tc main_arg6) = m ((c : Thread nD τ).loc main_arg6) :=
  (W6_of_ne m ρ c main_arg6 (by decide)).trans (HostBefore.entry_main_arg6 m ρ c)

set_option maxHeartbeats 4000000 in
/-- The aggregated features the second pallas_call reads: the aggregate of the first region's output array. -/
theorem entry_features (c : Dev nD) :
    V14 m ρ c main_v65 = aggregate ((dat0 (V5 m ρ) c).arrAt 4 cfg0.N) (m ((c : Thread nD τ).loc main_arg1)) (m ((c : Thread nD τ).loc main_arg2)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W6 m ρ c)))))))) (Proc.devRef .tc main_v65) = _
  simp only [hostOps1, hostOps1_1, hostOps1_2, hostOps1_3, hostOps1_4, hostOps1_5, hostOps1_6, hostOps1_7]
  after_results
  try simp only [TRef.ofBuf, TRef.toBuf, cast_eq]
  rw [show W6 m ρ c (Proc.devRef .tc main_v33) = (dat0 (V5 m ρ) c).arrAt 4 cfg0.N from W6_arr m ρ c 4,
    exit_src m ρ c, exit_dst m ρ c]
  rfl

set_option maxHeartbeats 4000000 in
/-- The in-degree factor column the second pallas_call reads. -/
theorem entry_factor (c : Dev nD) :
    V14 m ρ c main_v66 = nodeColumn (m ((c : Thread nD τ).loc main_arg2)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W6 m ρ c)))))))) (Proc.devRef .tc main_v66) = _
  simp only [hostOps1, hostOps1_1, hostOps1_2, hostOps1_3, hostOps1_4, hostOps1_5, hostOps1_6, hostOps1_7]
  after_results
  try simp only [TRef.ofBuf, TRef.toBuf, cast_eq]
  rw [exit_dst m ρ c]
  rfl

set_option maxHeartbeats 4000000 in
/-- The widened weights the second pallas_call reads. -/
theorem entry_weights (c : Dev nD) :
    V14 m ρ c main_v67 = padWeights (m ((c : Thread nD τ).loc main_arg5)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W6 m ρ c)))))))) (Proc.devRef .tc main_v67) = _
  simp only [hostOps1, hostOps1_1, hostOps1_2, hostOps1_3, hostOps1_4, hostOps1_5, hostOps1_6, hostOps1_7]
  after_results
  try simp only [TRef.ofBuf, TRef.toBuf, cast_eq]
  rw [exit_weights m ρ c]
  rfl

set_option maxHeartbeats 4000000 in
/-- The widened bias the second pallas_call reads. -/
theorem entry_bias (c : Dev nD) :
    V14 m ρ c main_v68 = padBias (m ((c : Thread nD τ).loc main_arg6)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W6 m ρ c)))))))) (Proc.devRef .tc main_v68) = _
  simp only [hostOps1, hostOps1_1, hostOps1_2, hostOps1_3, hostOps1_4, hostOps1_5, hostOps1_6, hostOps1_7]
  after_results
  try simp only [TRef.ofBuf, TRef.toBuf, cast_eq]
  rw [exit_bias m ρ c]
  rfl

end Cert.KernelIdeal.HostBetween

end
-- ==== Proof.SlicePad.lean ====
/-
  Widening with zeros and cutting back changes nothing.

  The second pallas_call works on weights and bias widened with zeros from 30 to 128 columns, and @main keeps the
  first 30 columns of its output. Column `j < 30` of the wide dense stage reads column `j` of the widened weights
  and entry `j` of the widened bias, which are the originals' — the zeros sit in columns 30 … 127, which the cut
  drops — so the cut of the wide stage IS the 30-column dense stage of the original weights and bias, entry by entry,
  with no arithmetic at all.
-/
import proofs.«419624_j51771535786306_4_alg».proof.Proof.Aggregate
import proofs.«419624_j51771535786306_4_alg».proof.Proof.DenseSpec
import Idealize.ShloMosaic.Lib.Pipeline.Value
import Idealize.ShloMosaic.Lib.KernelVsHost

noncomputable section

open scoped BigOperators

namespace Cert.KernelIdeal.SlicePad

open Cert.KernelIdeal Cert.KernelIdeal.Gen Cert.KernelIdeal.Agg Cert.GraphDense
open Idealize.ShloMosaic Idealize.ShloMosaic.ValueIdx

/-- Column `j < 30` of the widened weights is column `j` of the weights. -/
theorem padWeights_apply (W : (⟨S64x30, .f32⟩ : BufTy).Contents (Elt Ideal)) (k : Fin 64) (j : Fin 30) :
    padWeights (F := Ideal) W (ix2 k (Fin.castLE (by decide : 30 ≤ 128) j)) = W (ix2 k j) := by
  unfold padWeights
  refine pad_apply_of_inside _ _ _ W _ pads_S64x30_S64x128_000_0980 h_S_ _ (ix2 k j) fun a => ?_
  match a with
  | ⟨0, _⟩ => show k.val = 0 + k.val * (0 + 1); omega
  | ⟨1, _⟩ => show j.val = 0 + j.val * (0 + 1); omega

/-- Entry `j < 30` of the widened bias is entry `j` of the bias. -/
theorem padBias_apply (b : (⟨S30, .f32⟩ : BufTy).Contents (Elt Ideal)) (j : Fin 30) :
    padBias (F := Ideal) b (ix1 (Fin.castLE (by decide : 30 ≤ 128) j)) = b (ix1 j) := by
  unfold padBias
  refine pad_apply_of_inside _ _ _ b _ pads_S30_S128_0980 h_S_ _ (ix1 j) fun a => ?_
  match a with
  | ⟨0, _⟩ => show j.val = 0 + j.val * (0 + 1); omega

/-- The first 30 columns of the 128-column dense stage over the widened weights and bias are the 30-column dense
    stage over the weights and bias themselves. -/
theorem slice_dense_padded (A : Arr ⟨2, ![100000, 64]⟩) (N : Arr ⟨2, ![100000, 1]⟩)
    (W : (⟨S64x30, .f32⟩ : BufTy).Contents (Elt Ideal)) (b : (⟨S30, .f32⟩ : BufTy).Contents (Elt Ideal)) :
    extractStridedSlice S100000x30 ![0, 0] (dense2 128 A N (padWeights (F := Ideal) W) (padBias (F := Ideal) b)) slices_S100000x128_S100000x30_0_0
      = dense2 30 A N W b := by
  funext i
  obtain ⟨r, j, rfl⟩ : ∃ (r : Fin 100000) (j : Fin 30), i = ix2 r j := ⟨i 0, i 1, eq_ix2 i⟩
  refine (extractStridedSlice_apply ![0, 0] _ slices_S100000x128_S100000x30_0_0 (ix2 r j)
    (ix2 r (Fin.castLE (by decide : 30 ≤ 128) j)) fun a => ?_).trans ?_
  · match a with
    | ⟨0, _⟩ => show r.val = 0 + r.val; omega
    | ⟨1, _⟩ => show j.val = 0 + j.val; omega
  rw [dense2_apply, dense2_apply]
  unfold denseEntry
  rw [padBias_apply]
  refine congrArg (fun z : EReal => z + b (ix1 j)) (Finset.sum_congr rfl fun k _ => ?_)
  rw [padWeights_apply]

end Cert.KernelIdeal.SlicePad

end
-- ==== Proof.RefDense.lean ====
/-
  The reference's two dense stages are the same index-by-index functions the kernel's blocks are read as.

  Read one operation at a time, the reference's first layer is, at entry `(r, j)`,
  `max ((Σ_k (agg[r,k] · factor[r,0]) · W1[k,j]) + b1[j]) 0` with `agg` and `factor` its own aggregate stages, and
  its result is `(Σ_k (agg'[r,k] · factor'[r,0]) · W2[k,j]) + b2[j]` over the second aggregate. The host's
  `dot_general` is a plain sum at the ideal instance; every broadcast reads the one entry its index names.
-/
import proofs.«419624_j51771535786306_4_alg».proof.Proof.RefRead
import proofs.«419624_j51771535786306_4_alg».proof.Proof.DenseSpec

noncomputable section

open scoped BigOperators

namespace Cert.ReferenceIdeal.RefDense

open Cert.ReferenceIdeal Cert.ReferenceIdeal.RefRead Cert.GraphDense
open Idealize.ShloMosaic Idealize.ShloMosaic.ValueIdx

/-- The first layer's output stage is the clamped dense stage of the first aggregate stages. -/
theorem first_layer (x0 : (⟨S100000x64, .f32⟩ : BufTy).Contents (Elt Ideal)) (x1 x2 : (⟨S3200000, .i32⟩ : BufTy).Contents (Elt Ideal))
    (x3 : (⟨S64x64, .f32⟩ : BufTy).Contents (Elt Ideal)) (x4 : (⟨S64, .f32⟩ : BufTy).Contents (Elt Ideal)) :
    val_main_v39 (F := Ideal) x0 x1 x2 x3 x4
      = dense1 (val_main_v31 (F := Ideal) x0 x1 x2) (val_main_v32 (F := Ideal) x2) x3 x4 := by
  funext i
  obtain ⟨r, j, rfl⟩ : ∃ (r : Fin 100000) (j : Fin 64), i = ix2 r j := ⟨i 0, i 1, eq_ix2 i⟩
  rw [dense1_apply, val_main_v39_apply, val_main_v38_apply, val_main_v35_apply, val_main_v37_apply, val_main_v36_apply,
    val_main_call2_v0_apply, val_main_call2_cst_apply]
  unfold denseEntry
  show max (_ + _) _ = _
  refine congrArg₂ max (congrArg₂ (fun a b : EReal => a + b) (Finset.sum_congr rfl fun k _ => ?_) ?_) rfl
  · have hl : lidx_main_v35 (ix2 r j) k = ix2 r k := funext fun a => Fin.ext (by
      match a with
      | ⟨0, _⟩ => rfl
      | ⟨1, _⟩ => rfl)
    have hr : ridx_main_v35 (ix2 r j) k = ix2 k j := funext fun a => Fin.ext (by
      match a with
      | ⟨0, _⟩ => rfl
      | ⟨1, _⟩ => rfl)
    have hn : idx_main_v33 (ix2 r k) = ix2 r (0 : Fin 1) := funext fun a => Fin.ext (by
      match a with
      | ⟨0, _⟩ => rfl
      | ⟨1, _⟩ => rfl)
    rw [hl, hr, val_main_v34_apply, val_main_v33_apply, hn]
    rfl
  · exact congrArg x4 (funext fun a => Fin.ext (by
      match a with
      | ⟨0, _⟩ => rfl))

/-- The reference's result stage is the dense stage, 30 features wide, of the second aggregate stages. -/
theorem second_layer (x0 : (⟨S100000x64, .f32⟩ : BufTy).Contents (Elt Ideal)) (x1 x2 : (⟨S3200000, .i32⟩ : BufTy).Contents (Elt Ideal))
    (x3 : (⟨S64x64, .f32⟩ : BufTy).Contents (Elt Ideal)) (x4 : (⟨S64, .f32⟩ : BufTy).Contents (Elt Ideal))
    (x5 : (⟨S64x30, .f32⟩ : BufTy).Contents (Elt Ideal)) (x6 : (⟨S30, .f32⟩ : BufTy).Contents (Elt Ideal)) :
    val_main_v78 (F := Ideal) x0 x1 x2 x3 x4 x5 x6
      = dense2 30 (val_main_v71 (F := Ideal) x0 x1 x2 x3 x4) (val_main_v72 (F := Ideal) x2) x5 x6 := by
  funext i
  obtain ⟨r, j, rfl⟩ : ∃ (r : Fin 100000) (j : Fin 30), i = ix2 r j := ⟨i 0, i 1, eq_ix2 i⟩
  rw [dense2_apply, val_main_v78_apply, val_main_v75_apply, val_main_v77_apply, val_main_v76_apply]
  unfold denseEntry
  show _ + _ = _
  refine congrArg₂ (fun a b : EReal => a + b) (Finset.sum_congr rfl fun k _ => ?_) ?_
  · have hl : lidx_main_v75 (ix2 r j) k = ix2 r k := funext fun a => Fin.ext (by
      match a with
      | ⟨0, _⟩ => rfl
      | ⟨1, _⟩ => rfl)
    have hr : ridx_main_v75 (ix2 r j) k = ix2 k j := funext fun a => Fin.ext (by
      match a with
      | ⟨0, _⟩ => rfl
      | ⟨1, _⟩ => rfl)
    have hn : idx_main_v73 (ix2 r k) = ix2 r (0 : Fin 1) := funext fun a => Fin.ext (by
      match a with
      | ⟨0, _⟩ => rfl
      | ⟨1, _⟩ => rfl)
    rw [hl, hr, val_main_v74_apply, val_main_v73_apply, hn]
    rfl
  · exact congrArg x6 (funext fun a => Fin.ext (by
      match a with
      | ⟨0, _⟩ => rfl))

end Cert.ReferenceIdeal.RefDense

end
-- ==== Proof.SameAggregate.lean ====
/-
  The reference's sparse stages are the kernel program's.

  Read one operation at a time, the reference aggregates with the very operations the kernel program's host code
  uses, in the same order, over records with the same entries: its first aggregate stage is `aggregate x src dst`,
  its second `aggregate h src dst` with `h` its own first-layer output, and both of its factor columns are
  `nodeColumn dst`. The two texts differ only in which program's shape records they name, and those have the same
  fields. Stated for any float instance: nothing here depends on what a float is.
-/
import proofs.«419624_j51771535786306_4_alg».proof.Proof.RefRead
import proofs.«419624_j51771535786306_4_alg».proof.Proof.Aggregate

set_option maxRecDepth 16384

noncomputable section

namespace Cert.Proof.SameAggregate

open Idealize.ShloMosaic
open Cert.ReferenceIdeal.RefRead

variable {F : FTy → Type} [FloatOps F]

theorem first_features (x0 : (⟨Cert.ReferenceIdeal.S100000x64, .f32⟩ : BufTy).Contents (Elt F))
    (x1 x2 : (⟨Cert.ReferenceIdeal.S3200000, .i32⟩ : BufTy).Contents (Elt F)) :
    val_main_v31 (F := F) x0 x1 x2 = Cert.KernelIdeal.Agg.aggregate (F := F) x0 x1 x2 := rfl

theorem first_factor (x2 : (⟨Cert.ReferenceIdeal.S3200000, .i32⟩ : BufTy).Contents (Elt F)) :
    val_main_v32 (F := F) x2 = Cert.KernelIdeal.Agg.nodeColumn (F := F) x2 := rfl

theorem second_features (x0 : (⟨Cert.ReferenceIdeal.S100000x64, .f32⟩ : BufTy).Contents (Elt F))
    (x1 x2 : (⟨Cert.ReferenceIdeal.S3200000, .i32⟩ : BufTy).Contents (Elt F))
    (x3 : (⟨Cert.ReferenceIdeal.S64x64, .f32⟩ : BufTy).Contents (Elt F)) (x4 : (⟨Cert.ReferenceIdeal.S64, .f32⟩ : BufTy).Contents (Elt F)) :
    val_main_v71 (F := F) x0 x1 x2 x3 x4
      = Cert.KernelIdeal.Agg.aggregate (F := F) (val_main_v39 (F := F) x0 x1 x2 x3 x4) x1 x2 := rfl

theorem second_factor (x2 : (⟨Cert.ReferenceIdeal.S3200000, .i32⟩ : BufTy).Contents (Elt F)) :
    val_main_v72 (F := F) x2 = Cert.KernelIdeal.Agg.nodeColumn (F := F) x2 := rfl

end Cert.Proof.SameAggregate

end
-- ==== Proof.Bridge.lean ====
/-
  Both programs' results as ONE function of the launch arrays.

  With `agg` the shared edge aggregation and `col` the shared in-degree column, both programs end with

      dense₃₀ (agg (dense₆₄⁺ (agg x) col W1 b1)) col W2 b2

  where `dense₆₄⁺` is the clamped first dense stage and `dense₃₀` the 30-column second one. On the kernel's side the
  result buffer is the first 30 columns of the second pallas_call's 128-column output over zero-widened weights and
  bias, whose operand arrays the host fold leaves at `agg` of the first pallas_call's output array and at `col`; on
  the reference's side each stage is read one operation at a time. No law of arithmetic is used: each side IS the term.
-/
import proofs.«419624_j51771535786306_4_alg».proof.Proof.KernelRun
import proofs.«419624_j51771535786306_4_alg».proof.Proof.RegionFirst
import proofs.«419624_j51771535786306_4_alg».proof.Proof.RegionSecond
import proofs.«419624_j51771535786306_4_alg».proof.Proof.HostBefore
import proofs.«419624_j51771535786306_4_alg».proof.Proof.HostBetween
import proofs.«419624_j51771535786306_4_alg».proof.Proof.SlicePad
import proofs.«419624_j51771535786306_4_alg».proof.Proof.RefDense
import proofs.«419624_j51771535786306_4_alg».proof.Proof.SameAggregate

set_option maxRecDepth 16384

noncomputable section

namespace Cert.Proof.Bridge

open Idealize.ShloMosaic Idealize.ShloMosaic.TcCoe Idealize.SL.Sem Idealize.ShloMosaic.StableHlo
open Cert.GraphDense Cert.KernelIdeal.Agg

/-- The kernel program's result buffer after the run, as a function of the launch arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W16 m ρ c (Proc.devRef .tc Cert.KernelIdeal.main_v70)
      = dense2 30
        (aggregate (F := Ideal) (dense1 (aggregate (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (nodeColumn (F := Ideal) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (nodeColumn (F := Ideal) (m ((c.tc : Thread Cert.KernelIdeal.nD Cert.KernelIdeal.τ).loc Cert.KernelIdeal.main_arg2))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  have hwide : Cert.KernelIdeal.Gen.W15 m ρ c (Proc.devRef .tc Cert.KernelIdeal.main_v69)
      = dense2 128
        (aggregate (F := Ideal) (dense1 (aggregate (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (nodeColumn (F := Ideal) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (nodeColumn (F := Ideal) (m ((c.tc : Thread Cert.KernelIdeal.nD Cert.KernelIdeal.τ).loc Cert.KernelIdeal.main_arg2))) (padWeights (F := Ideal) (m ((c.tc : Thread Cert.KernelIdeal.nD Cert.KernelIdeal.τ).loc Cert.KernelIdeal.main_arg5))) (padBias (F := Ideal) (m ((c.tc : Thread Cert.KernelIdeal.nD Cert.KernelIdeal.τ).loc Cert.KernelIdeal.main_arg6))) := by
    rw [show Cert.KernelIdeal.Gen.W15 m ρ c (Proc.devRef .tc Cert.KernelIdeal.main_v69)
        = (Cert.KernelIdeal.Gen.dat1 (Cert.KernelIdeal.Gen.V14 m ρ) c).arrAt 4 Cert.KernelIdeal.cfg1.N from Cert.KernelIdeal.Gen.W15_arr m ρ c 4]
    rw [Cert.KernelIdeal.RegionSecond.array_is_dense (Cert.KernelIdeal.Gen.V14 m ρ) c,
      Cert.KernelIdeal.HostBetween.entry_features m ρ c, Cert.KernelIdeal.HostBetween.entry_factor m ρ c,
      Cert.KernelIdeal.HostBetween.entry_weights m ρ c, Cert.KernelIdeal.HostBetween.entry_bias m ρ c,
      Cert.KernelIdeal.RegionFirst.array_is_dense (Cert.KernelIdeal.Gen.V5 m ρ) c,
      Cert.KernelIdeal.HostBefore.entry_features m ρ c, Cert.KernelIdeal.HostBefore.entry_factor m ρ c,
      Cert.KernelIdeal.HostBefore.entry_main_arg3 m ρ c, Cert.KernelIdeal.HostBefore.entry_main_arg4 m ρ c]
  show StableHlo.after Cert.KernelIdeal.Gen.hostOps2 (Cert.KernelIdeal.Gen.W15 m ρ c) (Proc.devRef .tc Cert.KernelIdeal.main_v70) = _
  simp only [Cert.KernelIdeal.Gen.hostOps2]
  after_results
  rw [hwide]
  exact Cert.KernelIdeal.SlicePad.slice_dense_padded _ _ _ _

/-- The reference's result term, as the same function of its launch arrays. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.RefRun.res_main_v78 m' c
      = dense2 30
        (aggregate (F := Ideal) (dense1 (aggregate (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (nodeColumn (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))
          (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
        (nodeColumn (F := Ideal) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  rw [Cert.ReferenceIdeal.RefRead.val_main_v78_eq, Cert.ReferenceIdeal.RefDense.second_layer,
    Cert.Proof.SameAggregate.second_features, Cert.Proof.SameAggregate.second_factor,
    Cert.ReferenceIdeal.RefDense.first_layer, Cert.Proof.SameAggregate.first_features, Cert.Proof.SameAggregate.first_factor]

end Cert.Proof.Bridge

end
-- ==== Proof.lean ====
/-
  A two-layer graph convolution: the kernel program against its jnp reference, over the extended reals.

  Both programs aggregate node features along the edges with the same host operations (degree counts, inverse
  square roots, a gather by source and a scatter-add by destination). They differ in the dense stage of each layer,
  `(agg · factor) W + b`: the reference computes it on the host, the kernel program in a pallas_call tiled over 50
  blocks of 2000 nodes, the second time on weights and bias widened with zeros to 128 columns and cut back to 30.

  The three frames are the generated ones (the reference's its run with the result dropped). The idealized kernel program is
  the kernel program's own text read over the extended reals, with no operation replaced, so `preserves` has nothing
  to state. For `algebraic` both results are shown to be one and the same term of the
  launch arrays (Proof/Bridge.lean): each pallas_call's output array is its whole-array dense stage because its
  blocks tile the rows (Proof/RegionFirst.lean, Proof/RegionSecond.lean over Proof/Payload.lean), the host fold
  hands each region the shared aggregate of the right array (Proof/HostBefore.lean, Proof/HostBetween.lean), the
  zero columns are cut away (Proof/SlicePad.lean), and the reference's stages are the same functions
  (Proof/RefDense.lean, Proof/SameAggregate.lean). Finiteness of the inputs is never used.
-/
import proofs.«419624_j51771535786306_4_alg».proof.Defs
import proofs.«419624_j51771535786306_4_alg».proof.Proof.Gen.Kernel
import proofs.«419624_j51771535786306_4_alg».proof.Proof.Gen.Kernel.Skeleton
import proofs.«419624_j51771535786306_4_alg».proof.Proof.Gen.Kernel.Launch
import proofs.«419624_j51771535786306_4_alg».proof.Proof.Gen.Kernel.Points
import proofs.«419624_j51771535786306_4_alg».proof.Proof.Gen.Kernel.Frame
import proofs.«419624_j51771535786306_4_alg».proof.Proof.Gen.KernelIdeal
import proofs.«419624_j51771535786306_4_alg».proof.Proof.Gen.KernelIdeal.Skeleton
import proofs.«419624_j51771535786306_4_alg».proof.Proof.Gen.KernelIdeal.Launch
import proofs.«419624_j51771535786306_4_alg».proof.Proof.Gen.KernelIdeal.Points
import proofs.«419624_j51771535786306_4_alg».proof.Proof.Gen.KernelIdeal.Frame
import proofs.«419624_j51771535786306_4_alg».proof.Proof.Gen.ReferenceIdeal
import proofs.«419624_j51771535786306_4_alg».proof.Proof.Gen.Pre_finite_inputs
import proofs.«419624_j51771535786306_4_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the same result array: each is the one term
    of Proof/Bridge.lean over its own launch arrays, and those agree. -/
theorem algebraic : Cert.algebraic_KernelIdeal_ReferenceIdeal := by
  intro m ρ m' ρ' _ hagree
  refine ⟨fun c => Cert.ReferenceIdeal.RefRun.res_main_v78 m' c, ?_, Cert.ReferenceIdeal.RefRun.run (F := Ideal) m' ρ'⟩
  refine (θ_run Cert.KernelIdeal.defs _ _).mono (fun r h c => ⟨(h c).1.trans ?_, (h c).2⟩)
    (Cert.KernelIdeal.ValueRun.run_result (F := Ideal) m ρ)
  obtain ⟨a0, a1, a2, a3, a4, a5, a6⟩ := hagree c
  rw [Cert.Proof.Bridge.kernel_result m ρ c]
  refine Eq.trans ?_ (Cert.Proof.Bridge.reference_result m' c).symm
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
